-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S4096x1024 .f32) (main_arg2 : FVec F S4096 .f32) (main_arg3 : FVec F S1024x4096 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S4x4096x1024 : Shape := ⟨3, ![4, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S16384x1024 : Shape := ⟨2, ![16384, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 48
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1024x4096, .f32⟩
  | .hbm, ⟨38, _⟩ => ⟨S1024x4096, .f32⟩
  | .hbm, ⟨39, _⟩ => ⟨S_, .f32⟩
  | .hbm, ⟨40, _⟩ => ⟨S1024x4096, .f32⟩
  | .hbm, ⟨41, _⟩ => ⟨S1024x4096, .f32⟩
  | .hbm, ⟨42, _⟩ => ⟨S1024x4096, .bf16⟩
  | .hbm, ⟨43, _⟩ => ⟨S16384x1024, .f32⟩
  | .hbm, ⟨44, _⟩ => ⟨S1x4096, .f32⟩
  | .hbm, ⟨45, _⟩ => ⟨S1x1024, .f32⟩
  | .hbm, ⟨46, _⟩ => ⟨S16384x1024, .f32⟩
  | .hbm, ⟨47, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S1x4096, .f32⟩
  | .local _ .vmem, ⟨4, _⟩ => ⟨S1024x4096, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_cst_6 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_7 : Ref sig .tc := ⟨.hbm, 34, rfl⟩
abbrev main_cst_8 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S4096x1024_S_d0_1 : S4096x1024.ReducesTo [0, 1] S_
  h_S_ : 0 < S_.numel
  bcast_S_S4096x1024 : S_.BroadcastsInDim S4096x1024 (![] : Fin 0 → Fin S4096x1024.rank)
  bitsLt_bf16_f32 : FTy.bits .bf16 < FTy.bits .f32
  reducesTo_S1024x4096_S_d0_1 : S1024x4096.ReducesTo [0, 1] S_
  bcast_S_S1024x4096 : S_.BroadcastsInDim S1024x4096 (![] : Fin 0 → Fin S1024x4096.rank)
  shapeCasts_S4x4096x1024_S16384x1024 : S4x4096x1024.ShapeCasts S16384x1024
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S16384x1024_S4x4096x1024 : S16384x1024.ShapeCasts S4x4096x1024
  dot_S256x1024_S4096x1024_S256x4096_1_1_0_0_n_n_wf : DotDims.WF S256x1024 S4096x1024 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v18) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S4x4096x4096 : Shape := ⟨3, ![4, 4096, 4096]⟩
abbrev S1x1x4096 : Shape := ⟨3, ![1, 1, 4096]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S1024x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1024x4096, .f32⟩
  | .hbm, ⟨37, _⟩ => ⟨S1024x4096, .f32⟩
  | .hbm, ⟨38, _⟩ => ⟨S_, .f32⟩
  | .hbm, ⟨39, _⟩ => ⟨S1024x4096, .f32⟩
  | .hbm, ⟨40, _⟩ => ⟨S1024x4096, .f32⟩
  | .hbm, ⟨41, _⟩ => ⟨S4x4096x4096, .f32⟩
  | .hbm, ⟨42, _⟩ => ⟨S1x1x4096, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_cst_5 : Ref sig .tc := ⟨.hbm, 26, rfl⟩
abbrev main_v10 : Ref sig .tc := ⟨.hbm, 27, rfl⟩
abbrev main_cst_6 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_7 : Ref sig .tc := ⟨.hbm, 33, rfl⟩
abbrev main_cst_8 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call4_cst : Ref sig .tc := ⟨.hbm, 45, rfl⟩
abbrev main_call4_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩

abbrev nD : Nat := 1
abbrev τ : Topo := Topo.v7x

variable {F : FTy → Type} [FloatOps F]

class Facts₀ : Prop where
  reducesTo_S4096x1024_S_d0_1 : S4096x1024.ReducesTo [0, 1] S_
  h_S_ : 0 < S_.numel
  bcast_S_S4096x1024 : S_.BroadcastsInDim S4096x1024 (![] : Fin 0 → Fin S4096x1024.rank)
  reducesTo_S1024x4096_S_d0_1 : S1024x4096.ReducesTo [0, 1] S_
  bcast_S_S1024x4096 : S_.BroadcastsInDim S1024x4096 (![] : Fin 0 → Fin S1024x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S4096x1024_S4x4096x4096_2_1_01_0_n_n_wf : DotDims.WF S4x4096x1024 S4096x1024 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x1024_S4096x1024_S4x4096x4096_2_1_01_0_n_n : DotDims S4x4096x1024 S4096x1024 S4x4096x4096 where
  lhsContracting := [2]
  rhsContracting := [1]
  lhsNonContracting := [0, 1]
  rhsNonContracting := [0]
  lhsBatch := []
  rhsBatch := []
  wf := dot_S4x4096x1024_S4096x1024_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.Spec.lean ====
/-
  The two-layer perceptron with ternary weights, as one function of its data.

  A token is a vector `xr` of 1024 extended reals. With an already quantized first weight matrix `q1` (4096 × 1024), a
  first bias `b1`, an already quantized second weight matrix `q2` (1024 × 4096) and a second bias `b2`, the token's
  output at coordinate `d` is

      (∑ f, max ((∑ k, xr k · q1 (f, k)) + b1 f) 0 · q2 (d, f)) + b2 d :

  a hidden unit `f` is the rectified affine form of the token, and the output is the affine form of the hidden units.
  `result` applies it to every token (b, s) of a batch `x` of shape [4, 4096, 1024]. Nothing here regroups or
  distributes a sum, so no entry has to be finite.
-/
import Idealize.ShloMosaic.PureOps.Ideal.Laws
import Idealize.ShloMosaic.Lib.ValueIdx

noncomputable section

namespace Cert.Mlp

open Idealize.ShloMosaic Idealize.ShloMosaic.ValueIdx
open scoped BigOperators

/-- One token through the perceptron, read at output coordinate `d`. -/
def token (xr : Fin 1024 → EReal) (q1 : (⟨2, ![4096, 1024]⟩ : Shape).Idx → EReal) (b1 : Fin 4096 → EReal)
    (q2 : (⟨2, ![1024, 4096]⟩ : Shape).Idx → EReal) (b2 : Fin 1024 → EReal) (d : Fin 1024) : EReal :=
  (∑ f : Fin 4096, max ((∑ k : Fin 1024, xr k * q1 (ix2 f k)) + b1 f) 0 * q2 (ix2 d f)) + b2 d

/-- The perceptron of a token depends on its data entry by entry. -/
theorem token_congr {xr xr' : Fin 1024 → EReal} {q1 q1' : (⟨2, ![4096, 1024]⟩ : Shape).Idx → EReal} {b1 b1' : Fin 4096 → EReal}
    {q2 q2' : (⟨2, ![1024, 4096]⟩ : Shape).Idx → EReal} {b2 b2' : Fin 1024 → EReal}
    (hx : ∀ k, xr k = xr' k) (h1 : ∀ y, q1 y = q1' y) (hb1 : ∀ f, b1 f = b1' f) (h2 : ∀ y, q2 y = q2' y)
    (hb2 : ∀ e, b2 e = b2' e) (d : Fin 1024) : token xr q1 b1 q2 b2 d = token xr' q1' b1' q2' b2' d := by
  obtain rfl : xr = xr' := funext hx
  obtain rfl : q1 = q1' := funext h1
  obtain rfl : b1 = b1' := funext hb1
  obtain rfl : q2 = q2' := funext h2
  obtain rfl : b2 = b2' := funext hb2
  rfl

/-- The whole batch: entry (b, s, d) is token (b, s) read at `d`. -/
def result (x : (⟨3, ![4, 4096, 1024]⟩ : Shape).Idx → EReal) (q1 : (⟨2, ![4096, 1024]⟩ : Shape).Idx → EReal)
    (b1 : (⟨1, ![4096]⟩ : Shape).Idx → EReal) (q2 : (⟨2, ![1024, 4096]⟩ : Shape).Idx → EReal)
    (b2 : (⟨1, ![1024]⟩ : Shape).Idx → EReal) : (⟨3, ![4, 4096, 1024]⟩ : Shape).Idx → EReal :=
  fun i => token (fun k => x (ix3 (i 0) (i 1) k)) q1 (fun f => b1 (ix1 f)) q2 (fun d => b2 (ix1 d)) (i 2)

/-- The same over the tokens laid out as the 16384 rows of a matrix, the biases as one-row matrices: entry (r, d) is
    row `r` read at `d`. -/
def rows (x : (⟨2, ![16384, 1024]⟩ : Shape).Idx → EReal) (q1 : (⟨2, ![4096, 1024]⟩ : Shape).Idx → EReal)
    (b1 : (⟨2, ![1, 4096]⟩ : Shape).Idx → EReal) (q2 : (⟨2, ![1024, 4096]⟩ : Shape).Idx → EReal)
    (b2 : (⟨2, ![1, 1024]⟩ : Shape).Idx → EReal) : (⟨2, ![16384, 1024]⟩ : Shape).Idx → EReal :=
  fun j => token (fun k => x (ix2 (j 0) k)) q1 (fun f => b1 (ix2 (0 : Fin 1) f)) q2 (fun d => b2 (ix2 (0 : Fin 1) d)) (j 1)

end Cert.Mlp

end
-- ==== Proof.RefValue.lean ====
/-
  The reference computes the perceptron of `Spec.lean`.

  Its two contractions are sums over the contracted coordinate, its bias rows are broadcasts read at their last
  coordinate, its rectifier is the maximum with zero: read index by index the result at (b, s, d) is token (b, s) of the
  batch at `d`, over the reference's own quantized weights (kept as the opaque stages they are).
-/
import proofs.«124895_j64854006170068_1_alg».proof.Proof.Gen.ReferenceIdeal.Read
import proofs.«124895_j64854006170068_1_alg».proof.Proof.Spec

noncomputable section

namespace Cert.ReferenceIdeal.RefValue

open Cert.ReferenceIdeal Cert.ReferenceIdeal.Read Idealize.ShloMosaic Idealize.ShloMosaic.ValueIdx
open scoped BigOperators

/-- The reference's result stage is the perceptron of the batch over its quantized weights. -/
theorem result_eq (x0 : (⟨S4x4096x1024, .f32⟩ : BufTy).Contents (Elt Ideal)) (x1 : (⟨S4096x1024, .f32⟩ : BufTy).Contents (Elt Ideal))
    (x2 : (⟨S4096, .f32⟩ : BufTy).Contents (Elt Ideal)) (x3 : (⟨S1024x4096, .f32⟩ : BufTy).Contents (Elt Ideal))
    (x4 : (⟨S1024, .f32⟩ : BufTy).Contents (Elt Ideal)) :
    val_main_v24 (F := Ideal) x0 x1 x2 x3 x4
      = Cert.Mlp.result x0 (val_main_v7 (F := Ideal) x1) x2 (val_main_v15 (F := Ideal) x3) x4 := by
  funext i
  rw [val_main_v24_apply, val_main_v21_apply, val_main_v23_apply, val_main_v22_apply]
  simp only [val_main_v20_apply, val_main_v19_apply, val_main_v16_apply, val_main_v18_apply, val_main_v17_apply,
    val_main_call4_v0_apply, val_main_call4_cst_apply, Ideal.addf_def, Ideal.maximumf_def, Ideal.ofBits_def,
    Ideal.ofBits_zero_f32]
  have e1 : ∀ (f : Fin 4096) (k : Fin 1024), lidx_main_v16 (lidx_main_v21 i f) k = ix3 (i 0) (i 1) k := fun f k =>
    funext fun a => by match a with | ⟨0, _⟩ => rfl | ⟨1, _⟩ => rfl | ⟨2, _⟩ => rfl
  have e2 : ∀ (f : Fin 4096) (k : Fin 1024), ridx_main_v16 (lidx_main_v21 i f) k = ix2 f k := fun f k =>
    funext fun a => by match a with | ⟨0, _⟩ => rfl | ⟨1, _⟩ => rfl
  have e3 : ∀ f : Fin 4096, idx_main_v17 (idx_main_v18 (lidx_main_v21 i f)) = ix1 f := fun f =>
    funext fun a => by match a with | ⟨0, _⟩ => rfl
  have e4 : ∀ f : Fin 4096, ridx_main_v21 i f = ix2 (i 2) f := fun f =>
    funext fun a => by match a with | ⟨0, _⟩ => rfl | ⟨1, _⟩ => rfl
  have e5 : idx_main_v22 (idx_main_v23 i) = ix1 (i 2) :=
    funext fun a => by match a with | ⟨0, _⟩ => rfl
  simp only [e1, e2, e3, e4, e5]
  rfl

end Cert.ReferenceIdeal.RefValue

end
-- ==== Proof.Payload.lean ====
/-
  What one grid point's body computes, index by index.

  The body loads a block of 256 tokens (rows), both quantized weight matrices and both bias rows, and stores one value:
  the rows times the transposed first weights from a zero accumulator, plus the first bias row on every row, rectified,
  times the transposed second weights from a zero accumulator, plus the second bias row. A product that contracts the
  LAST axis of both operands, from zero, read at (p, n) is `∑ k, A (p, k) · B (n, k)`; narrowing to bf16 changes no
  extended real. So the stored value at (p, d) is the perceptron of row p of the block, read at d.
-/
import proofs.«124895_j64854006170068_1_alg».proof.Proof.Gen.KernelIdeal.Skeleton
import proofs.«124895_j64854006170068_1_alg».proof.Proof.Spec
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx
open scoped BigOperators

/-! ## The operand indices of the two products, axis by axis -/

theorem lhs_up_0 (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem lhs_up_1 (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
theorem rhs_up_0 (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem rhs_up_1 (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

theorem lhs_down_0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem lhs_down_1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
theorem rhs_down_0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem rhs_down_1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-! ## The two products read at an index -/

/-- The first product: 256 rows of 1024 against the 4096 rows of the first weights, contracted over the 1024. -/
theorem up_apply (A : FVec Ideal S256x1024 .bf16) (B : FVec Ideal S4096x1024 .bf16) (p : Fin 256) (n : Fin 4096) :
    matmul dot_S256x1024_S4096x1024_S256x4096_1_1_0_0_n_n none A B (constant S256x4096 .f32 0x00000000#32) (ix2 p n)
      = ∑ k : Fin 1024, A (ix2 p k) * B (ix2 n k) := by
  refine (Ideal.matmul_constant_zero_apply dot_S256x1024_S4096x1024_S256x4096_1_1_0_0_n_n none A B (ix2 p n)).trans ?_
  rw [← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p n) ((contrEquiv1 dot_S256x1024_S4096x1024_S256x4096_1_1_0_0_n_n 1024 rfl rfl).symm k) = ix2 p k := funext fun a => Fin.ext (by
    match a with
    | ⟨0, _⟩ => exact lhs_up_0 _ _
    | ⟨1, _⟩ => exact (lhs_up_1 _ _).trans hk)
  have er : dot_S256x1024_S4096x1024_S256x4096_1_1_0_0_n_n.rhsIdx (ix2 p n) ((contrEquiv1 dot_S256x1024_S4096x1024_S256x4096_1_1_0_0_n_n 1024 rfl rfl).symm k) = ix2 n k := funext fun a => Fin.ext (by
    match a with
    | ⟨0, _⟩ => exact rhs_up_0 _ _
    | ⟨1, _⟩ => exact (rhs_up_1 _ _).trans hk)
  rw [el, er]

/-- The second product: 256 rows of 4096 hidden units against the 1024 rows of the second weights, contracted over the 4096. -/
theorem down_apply (A : FVec Ideal S256x4096 .bf16) (B : FVec Ideal S1024x4096 .bf16) (p : Fin 256) (n : Fin 1024) :
    matmul dot_S256x4096_S1024x4096_S256x1024_1_1_0_0_n_n none A B (constant S256x1024 .f32 0x00000000#32) (ix2 p n)
      = ∑ k : Fin 4096, A (ix2 p k) * B (ix2 n k) := by
  refine (Ideal.matmul_constant_zero_apply dot_S256x4096_S1024x4096_S256x1024_1_1_0_0_n_n none A B (ix2 p n)).trans ?_
  rw [← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p n) ((contrEquiv1 dot_S256x4096_S1024x4096_S256x1024_1_1_0_0_n_n 4096 rfl rfl).symm k) = ix2 p k := funext fun a => Fin.ext (by
    match a with
    | ⟨0, _⟩ => exact lhs_down_0 _ _
    | ⟨1, _⟩ => exact (lhs_down_1 _ _).trans hk)
  have er : dot_S256x4096_S1024x4096_S256x1024_1_1_0_0_n_n.rhsIdx (ix2 p n) ((contrEquiv1 dot_S256x4096_S1024x4096_S256x1024_1_1_0_0_n_n 4096 rfl rfl).symm k) = ix2 n k := funext fun a => Fin.ext (by
    match a with
    | ⟨0, _⟩ => exact rhs_down_0 _ _
    | ⟨1, _⟩ => exact (rhs_down_1 _ _).trans hk)
  rw [el, er]

/-! ## The stored value -/

/-- The body's one stored value at (p, d) is the perceptron of row `p` of the token block read at `d`. -/
theorem pay_apply (x0 : Vec Ideal S256x1024 .f32) (w1 : Vec Ideal S4096x1024 .bf16) (b1 : Vec Ideal S1x4096 .f32)
    (w2 : Vec Ideal S1024x4096 .bf16) (b2 : Vec Ideal S1x1024 .f32) (p : Fin 256) (d : Fin 1024) :
    k0_pay1 (F := Ideal) x0 w1 b1 w2 b2 (ix2 p d)
      = Cert.Mlp.token (fun k => x0 (ix2 p k)) w1 (fun f => b1 (ix2 (0 : Fin 1) f)) w2 (fun e => b2 (ix2 (0 : Fin 1) e)) d := by
  unfold k0_pay1 Cert.Mlp.token
  dsimp only
  rw [addf_apply, down_apply, broadcastTo_1b_ab_apply]
  simp only [truncf_apply, maximumf_apply, addf_apply, up_apply, broadcastTo_1b_ab_apply, shapeCast_self, broadcast_apply,
    Ideal.ofBits_def, Ideal.ofBits_zero_f32]

end Cert.KernelIdeal.Hand

end
-- ==== Proof.KernelValue.lean ====
/-
  The kernel's output array after the run.

  The region finds five arrays: the 16384 tokens as rows, the two quantized weight matrices, the two bias rows. Grid
  point t loads rows 256·t … 256·t + 255 of the tokens and the other four arrays whole, and writes back rows
  256·t … 256·t + 255 of the output. By `Payload.lean` the value it writes at (p, d) is the perceptron of row
  256·t + p read at d; the 64 row blocks tile the output; so the output array ends holding, at (r, d), the perceptron of
  row r read at d.
-/
import proofs.«124895_j64854006170068_1_alg».proof.Proof.Gen.KernelIdeal.Frame
import proofs.«124895_j64854006170068_1_alg».proof.Proof.Payload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, at their literal types -/

/-- The tokens, one per row. -/
abbrev tokens (c : Dev nD) : Vec Ideal S16384x1024 .f32 := V m c main_v18
/-- The quantized first weights. -/
abbrev w1q (c : Dev nD) : Vec Ideal S4096x1024 .bf16 := V m c main_v8
/-- The first bias as a one-row matrix. -/
abbrev b1row (c : Dev nD) : Vec Ideal S1x4096 .f32 := V m c main_v19
/-- The quantized second weights. -/
abbrev w2q (c : Dev nD) : Vec Ideal S1024x4096 .bf16 := V m c main_v17
/-- The second bias as a one-row matrix. -/
abbrev b2row (c : Dev nD) : Vec Ideal S1x1024 .f32 := V m c main_v20

/-- What the output array ends holding: row by row the perceptron of the token. -/
abbrev outRows (c : Dev nD) : Vec Ideal S16384x1024 .f32 :=
  Cert.Mlp.rows (tokens m c) (w1q m c) (b1row m c) (w2q m c) (b2row m c)

/-! ## Which block each window holds at a point -/

/-- The token window and the output window sit on row block t; the other four windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the token block at point t is row 256·t + p of the tokens. -/
theorem blk0 (c : Dev nD) (t : Fin cfg0.N) (p : Fin 256) (k : Fin 1024) (r : Fin 16384) (hr : r.val = t.val * 256 + p.val) :
    (iblk m c 0 t : Vec Ideal S256x1024 .f32) (ix2 p k) = tokens m c (ix2 r k) := by
  obtain ⟨e0, e1, -⟩ := idx_facts t
  unfold iblk
  rw [View.read_apply]
  show (V m c main_v18 : S16384x1024.Idx → EReal) _ = (V m c main_v18 : S16384x1024.Idx → EReal) (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- The first weights' block is the whole matrix at every point. -/
theorem blk1 (c : Dev nD) (t : Fin cfg0.N) (y : S4096x1024.Idx) : (iblk m c 1 t : Vec Ideal S4096x1024 .bf16) y = w1q m c y := by
  obtain ⟨-, -, e0, e1, -⟩ := idx_facts t
  unfold iblk
  rw [View.read_apply]
  show (V m c main_v8 : S4096x1024.Idx → EReal) _ = (V m c main_v8 : S4096x1024.Idx → EReal) y
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- The first bias row's block is the whole row. -/
theorem blk2 (c : Dev nD) (t : Fin cfg0.N) (y : S1x4096.Idx) : (iblk m c 2 t : Vec Ideal S1x4096 .f32) y = b1row m c y := by
  obtain ⟨-, -, -, -, e0, e1, -⟩ := idx_facts t
  unfold iblk
  rw [View.read_apply]
  show (V m c main_v19 : S1x4096.Idx → EReal) _ = (V m c main_v19 : S1x4096.Idx → EReal) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega

/-- The second weights' block is the whole matrix. -/
theorem blk3 (c : Dev nD) (t : Fin cfg0.N) (y : S1024x4096.Idx) : (iblk m c 3 t : Vec Ideal S1024x4096 .bf16) y = w2q m c y := by
  obtain ⟨-, -, -, -, -, -, e0, e1, -⟩ := idx_facts t
  unfold iblk
  rw [View.read_apply]
  show (V m c main_v17 : S1024x4096.Idx → EReal) _ = (V m c main_v17 : S1024x4096.Idx → EReal) y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- The second bias row's block is the whole row. -/
theorem blk4 (c : Dev nD) (t : Fin cfg0.N) (y : S1x1024.Idx) : (iblk m c 4 t : Vec Ideal S1x1024 .f32) y = b2row m c y := by
  obtain ⟨-, -, -, -, -, -, -, -, e0, e1, -⟩ := idx_facts t
  unfold iblk
  rw [View.read_apply]
  show (V m c main_v20 : S1x1024.Idx → EReal) _ = (V m c main_v20 : S1x1024.Idx → EReal) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-! ## What a point writes back, the cover, the array -/

/-- Point t writes back block t of `outRows`. -/
theorem flushed_eq (c : Dev nD) (t : Fin cfg0.N) :
    (dats m 0 c).flushed 5 t = ((cfg0.win 5).blk t).view.read (Elt Ideal) (outRows m c) := by
  show (cfg0.win 5).cut (grid0.coords t) ((dats m 0 c).after 5 t) = _
  rw [after0_5]
  unfold out0_5
  rw [View.canon_unit_zero hz]
  simp only [View.ld_unit_zero (S := S256x1024) hz, View.ld_unit_zero (S := S4096x1024) hz, View.ld_unit_zero (S := S1x4096) hz,
    View.ld_unit_zero (S := S1024x4096) hz, View.ld_unit_zero (S := S1x1024) hz]
  funext j
  obtain ⟨p, d, rfl⟩ : ∃ (p : Fin 256) (d : Fin 1024), j = ix2 p d := ⟨j 0, j 1, eq_ix2 j⟩
  obtain ⟨-, -, -, -, -, -, -, -, -, -, e0, e1⟩ := idx_facts t
  have hN : grid0.N = 64 := N_0
  have hr : t.val * 256 + p.val < 16384 := by have h1 : t.val < grid0.N := t.isLt; have h2 := p.isLt; omega
  have hemb : ((cfg0.win 5).blk t).view.emb (ix2 p d) = ix2 (⟨t.val * 256 + p.val, hr⟩ : Fin 16384) d := by
    funext a; apply Fin.ext
    match a with
    | ⟨0, _⟩ => show win0_5.index t (0 : Fin 2) * 256 + 1 * p.val = t.val * 256 + p.val; omega
    | ⟨1, _⟩ => show win0_5.index t (1 : Fin 2) * 1024 + 1 * d.val = d.val; omega
  show k0_pay1 (F := Ideal) (iblk m c 0 t) (iblk m c 1 t) (iblk m c 2 t) (iblk m c 3 t) (iblk m c 4 t) (ix2 p d)
    = outRows m c (((cfg0.win 5).blk t).view.emb (ix2 p d))
  rw [hemb]
  refine (pay_apply (iblk m c 0 t) (iblk m c 1 t) (iblk m c 2 t) (iblk m c 3 t) (iblk m c 4 t) p d).trans ?_
  exact Cert.Mlp.token_congr (fun k => blk0 m c t p k _ rfl) (blk1 m c t) (fun f => blk2 m c t _) (blk3 m c t)
    (fun e => blk4 m c t _) d

/-- An index of the output is in point t's block iff each coordinate is in the block's range on its axis. -/
theorem mem_blk (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v21).slice (win0_5.rect t)).set ↔ _
  rw [View.set_slice_whole, Rect.mem_set_unit]
  exact Iff.rfl

/-- Row r of the output lies in the block of point r / 256. -/
theorem cover (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : grid0.N = 64 := N_0
  have ht : (i 0).val / 256 < grid0.N := by rw [hN]; omega
  obtain ⟨-, -, -, -, -, -, -, -, -, -, e0, e1⟩ := idx_facts ⟨(i 0).val / 256, ht⟩
  refine ⟨⟨(i 0).val / 256, ht⟩, flush0_5 _, ?_⟩
  rw [mem_blk]
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, ht⟩ (1 : Fin 2) * 1024 ≤ (i 1).val ∧ (i 1).val < win0_5.index ⟨(i 0).val / 256, ht⟩ (1 : Fin 2) * 1024 + 1024
    rw [e1]; omega

/-- The output array after the run. -/
theorem final (c : Dev nD) : (dats m 0 c).arrAt 5 cfg0.N = outRows m c :=
  (dats m 0 c).arrAt_eq_of_cover 5 (outRows m c) (fun t _ => flushed_eq m c t) (cover)

end Cert.KernelIdeal.Hand

end
-- ==== Proof.Entry.lean ====
/-
  The arrays the region finds, as terms of the program's arguments.

  Before the region the host quantizes each weight matrix — the matrix divided by (the mean of its absolute values plus
  a small constant), rounded to the nearest integer (ties to even), clamped to [-1, 1] — and narrows it to bf16; it lays
  the batch out as 16384 rows and each bias as a one-row matrix. The two quantizations are kept as one definition each
  and never opened: the reference applies the same operations to the same matrix.
-/
import proofs.«124895_j64854006170068_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]

/-- The first weights quantized to {-1, 0, 1} (before narrowing). -/
def quant1 (W : FVec F S4096x1024 .f32) : FVec F S4096x1024 .f32 :=
  minimumf (broadcastInDim S4096x1024 ![] bcast_S_S4096x1024 (id (constant (F := F) S_ .f32 0x3F800000#32)))
    (maximumf (broadcastInDim S4096x1024 ![] bcast_S_S4096x1024 (id (constant (F := F) S_ .f32 0xBF800000#32)))
      (Host.roundeven (Host.divf W (broadcastInDim S4096x1024 ![] bcast_S_S4096x1024
        (addf (Host.divf (Host.reduceAdd (Host.absf W) (constant (F := F) S_ .f32 0x00000000#32) reducesTo_S4096x1024_S_d0_1 h_S_)
          (constant (F := F) S_ .f32 0x4A800000#32)) (constant (F := F) S_ .f32 0x3727C5AC#32))))))

/-- The second weights quantized to {-1, 0, 1} (before narrowing). -/
def quant2 (W : FVec F S1024x4096 .f32) : FVec F S1024x4096 .f32 :=
  minimumf (broadcastInDim S1024x4096 ![] bcast_S_S1024x4096 (id (constant (F := F) S_ .f32 0x3F800000#32)))
    (maximumf (broadcastInDim S1024x4096 ![] bcast_S_S1024x4096 (id (constant (F := F) S_ .f32 0xBF800000#32)))
      (Host.roundeven (Host.divf W (broadcastInDim S1024x4096 ![] bcast_S_S1024x4096
        (addf (Host.divf (Host.reduceAdd (Host.absf W) (constant (F := F) S_ .f32 0x00000000#32) reducesTo_S1024x4096_S_d0_1 h_S_)
          (constant (F := F) S_ .f32 0x4A800000#32)) (constant (F := F) S_ .f32 0x3727C5AC#32))))))

variable (m : (ℓ : Loc nD τ sig) → Buf (Elt F) ℓ)

set_option maxHeartbeats 2000000 in
/-- The region finds the batch laid out as 16384 rows. -/
theorem V_tokens (c : Dev nD) : (V m c main_v18 : S16384x1024.Idx → Elt F .f32)
    = shapeCast S16384x1024 (m ((c : Thread nD τ).loc main_arg0)) shapeCasts_S4x4096x1024_S16384x1024 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  funext i
  rfl

set_option maxHeartbeats 2000000 in
/-- The region finds the first weights quantized and narrowed. -/
theorem V_w1q (c : Dev nD) : (V m c main_v8 : S4096x1024.Idx → Elt F .bf16)
    = truncf .bf16 (quant1 (m ((c : Thread nD τ).loc main_arg1))) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
/-- The region finds the first bias as a one-row matrix. -/
theorem V_b1row (c : Dev nD) : (V m c main_v19 : S1x4096.Idx → Elt F .f32)
    = shapeCast S1x4096 (m ((c : Thread nD τ).loc main_arg2)) shapeCasts_S4096_S1x4096 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
/-- The region finds the second weights quantized and narrowed. -/
theorem V_w2q (c : Dev nD) : (V m c main_v17 : S1024x4096.Idx → Elt F .bf16)
    = truncf .bf16 (quant2 (m ((c : Thread nD τ).loc main_arg3))) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
/-- The region finds the second bias as a one-row matrix. -/
theorem V_b2row (c : Dev nD) : (V m c main_v20 : S1x1024.Idx → Elt F .f32)
    = shapeCast S1x1024 (m ((c : Thread nD τ).loc main_arg4)) shapeCasts_S1024_S1x1024 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

end Cert.KernelIdeal.Hand

end
-- ==== Proof.KernelRun.lean ====
/-
  The kernel program's result.

  After the region the host lays the 16384 output rows out again as the batch [4, 4096, 1024]: entry (b, s, d) is row
  4096·b + s at d. Row 4096·b + s of the tokens is token (b, s) of the batch, and each bias row is the bias; so the
  program's result is the perceptron of every token of the batch, over the quantized and narrowed weights.
-/
import proofs.«124895_j64854006170068_1_alg».proof.Proof.KernelValue
import proofs.«124895_j64854006170068_1_alg».proof.Proof.Entry

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

set_option maxHeartbeats 2000000 in
/-- The host line after the region reshapes the output rows to the batch's shape. -/
theorem tail_eq (c : Dev nD) :
    (Pipeline.afterTail₀ cfgs (dats m) 0 (V0 m) [hostOps1] c main_v22 : S4x4096x1024.Idx → EReal)
      = shapeCast S4x4096x1024 (outRows m c) shapeCasts_S16384x1024_S4x4096x1024 := by
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.devRef .tc main_v21)
      = outRows m c := (Pipeline.withArrays_arr spec0 launch0.win.arr_inj c _ _ 5).trans (final m c)
  rw [e]
  funext i
  rfl

/-- Row 4096·b + s of the tokens is token (b, s) of the batch. -/
theorem tokens_apply (c : Dev nD) (b : Fin 4) (s : Fin 4096) (k : Fin 1024) (r : Fin 16384) (hr : r.val = b.val * 4096 + s.val) :
    tokens m c (ix2 r k) = (m ((c : Thread nD τ).loc main_arg0)) (ix3 b s k) := by
  show (V m c main_v18 : S16384x1024.Idx → EReal) (ix2 r k) = _
  rw [V_tokens]
  refine shapeCast_apply _ _ _ _ ?_
  show (S4x4096x1024.rowMajor (ix3 b s k)).val = (S16384x1024.rowMajor (ix2 r k)).val
  rw [Shape.rowMajor_val_two, Shape.rowMajor_val_three]
  show (b.val * 4096 + s.val) * 1024 + k.val = r.val * 1024 + k.val
  rw [hr]

/-- The first bias row is the first bias. -/
theorem b1row_apply (c : Dev nD) (f : Fin 4096) : b1row m c (ix2 (0 : Fin 1) f) = (m ((c : Thread nD τ).loc main_arg2)) (ix1 f) := by
  show (V m c main_v19 : S1x4096.Idx → EReal) (ix2 (0 : Fin 1) f) = _
  rw [V_b1row]
  exact shapeCast_a_1a_apply _ _ _ _

/-- The second bias row is the second bias. -/
theorem b2row_apply (c : Dev nD) (e : Fin 1024) : b2row m c (ix2 (0 : Fin 1) e) = (m ((c : Thread nD τ).loc main_arg4)) (ix1 e) := by
  show (V m c main_v20 : S1x1024.Idx → EReal) (ix2 (0 : Fin 1) e) = _
  rw [V_b2row]
  exact shapeCast_a_1a_apply _ _ _ _

/-- The output rows laid out as the batch are the perceptron of every token of the batch. -/
theorem out_eq (c : Dev nD) :
    shapeCast S4x4096x1024 (outRows m c) shapeCasts_S16384x1024_S4x4096x1024
      = Cert.Mlp.result (m ((c : Thread nD τ).loc main_arg0)) (truncf .bf16 (quant1 (F := Ideal) (m ((c : Thread nD τ).loc main_arg1))) bitsLt_bf16_f32)
        (m ((c : Thread nD τ).loc main_arg2)) (truncf .bf16 (quant2 (F := Ideal) (m ((c : Thread nD τ).loc main_arg3))) bitsLt_bf16_f32) (m ((c : Thread nD τ).loc main_arg4)) := by
  funext i
  obtain ⟨b, s, d, rfl⟩ : ∃ (b : Fin 4) (s : Fin 4096) (d : Fin 1024), i = ix3 b s d := ⟨i 0, i 1, i 2, eq_ix3 i⟩
  have hr : b.val * 4096 + s.val < 16384 := by have h1 := b.isLt; have h2 := s.isLt; omega
  refine (shapeCast_apply (outRows m c) shapeCasts_S16384x1024_S4x4096x1024 (ix3 b s d)
    (ix2 (⟨b.val * 4096 + s.val, hr⟩ : Fin 16384) d) (by
      show (S16384x1024.rowMajor (ix2 (⟨b.val * 4096 + s.val, hr⟩ : Fin 16384) d)).val = (S4x4096x1024.rowMajor (ix3 b s d)).val
      rw [Shape.rowMajor_val_two, Shape.rowMajor_val_three]; rfl)).trans ?_
  exact Cert.Mlp.token_congr (fun k => tokens_apply m c b s k _ rfl) (fun y => congrFun (V_w1q m c) y)
    (fun f => b1row_apply m c f) (fun y => congrFun (V_w2q m c) y) (fun e => b2row_apply m c e) d

/-- The kernel program's run with its result named: every fair execution ends with the result at the perceptron of
    the batch over the quantized, narrowed weights, and the arguments as they were. -/
theorem run : θ_run defs (onTc (τ := τ) (main (F := Ideal))) ⟨m, fun _ => 0, ρ⟩ fun r => ∀ c : Dev nD,
      r.2.mem ((c.tc : Thread nD τ).loc main_v22) = Cert.Mlp.result (m ((c : Thread nD τ).loc main_arg0)) (truncf .bf16 (quant1 (F := Ideal) (m ((c : Thread nD τ).loc main_arg1))) bitsLt_bf16_f32)
        (m ((c : Thread nD τ).loc main_arg2)) (truncf .bf16 (quant2 (F := Ideal) (m ((c : Thread nD τ).loc main_arg3))) bitsLt_bf16_f32) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v22 (Pipeline.mem_restRefs_of main_v22 (by decide) (by decide))).trans ((tail_eq m c).trans (out_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.lean ====
/-
  The certificate of a two-layer perceptron with ternary weights against its reference.

  Both programs quantize each weight matrix on the host with the same operations (divide by the mean absolute value plus
  a small constant, round to nearest even, clamp to [-1, 1]); the kernel then narrows the result to bf16, which changes no
  extended real. The reference contracts the whole batch against the quantized weights (two `dot_general`s, a bias after
  each, a rectifier between them). The kernel lays the batch out as 16384 rows and, 256 rows at a grid point, does the
  same with two products from a zero accumulator. Index by index both results are

      (∑ f, max ((∑ k, x (b, s, k) · q1 (f, k)) + b1 f) 0 · q2 (d, f)) + b2 d :

  the same sums over the same coordinates in the same order of factors, so the equality needs no algebra on the
  extended reals and no finiteness of the inputs. The frames of the two kernel programs are the generated ones; the
  reference's frame is its generated run with the result dropped; the ideal pass rewrote nothing.
-/
import proofs.«124895_j64854006170068_1_alg».proof.Defs
import proofs.«124895_j64854006170068_1_alg».proof.Proof.Gen.Kernel
import proofs.«124895_j64854006170068_1_alg».proof.Proof.Gen.Kernel.Skeleton
import proofs.«124895_j64854006170068_1_alg».proof.Proof.Gen.Kernel.Launch
import proofs.«124895_j64854006170068_1_alg».proof.Proof.Gen.Kernel.Points
import proofs.«124895_j64854006170068_1_alg».proof.Proof.Gen.Kernel.Frame
import proofs.«124895_j64854006170068_1_alg».proof.Proof.Gen.KernelIdeal
import proofs.«124895_j64854006170068_1_alg».proof.Proof.Gen.KernelIdeal.Skeleton
import proofs.«124895_j64854006170068_1_alg».proof.Proof.Gen.KernelIdeal.Launch
import proofs.«124895_j64854006170068_1_alg».proof.Proof.Gen.KernelIdeal.Points
import proofs.«124895_j64854006170068_1_alg».proof.Proof.Gen.KernelIdeal.Frame
import proofs.«124895_j64854006170068_1_alg».proof.Proof.Gen.ReferenceIdeal
import proofs.«124895_j64854006170068_1_alg».proof.Proof.Gen.Pre_finite_inputs
import proofs.«124895_j64854006170068_1_alg».proof.Proof.Gen.ReferenceIdeal.Run
import proofs.«124895_j64854006170068_1_alg».proof.Proof.Gen.ReferenceIdeal.Read
import proofs.«124895_j64854006170068_1_alg».proof.Proof.RefValue
import proofs.«124895_j64854006170068_1_alg».proof.Proof.KernelRun
import Idealize.ShloMosaic.Adequacy
import Idealize.ShloMosaic.Init

noncomputable section

namespace Cert.Proof

open Idealize.ShloMosaic Idealize.ShloMosaic.TcCoe Idealize.SL.Sem

/-- The kernel's first weights — quantized, then narrowed — are the reference's quantized first weights: the same
    operations on the same matrix, and narrowing is the identity on the extended reals. -/
theorem w1_eq (W : FVec Ideal Cert.KernelIdeal.S4096x1024 .f32) :
    (truncf .bf16 (Cert.KernelIdeal.Hand.quant1 (F := Ideal) W) Cert.KernelIdeal.Gen.bitsLt_bf16_f32 : Cert.KernelIdeal.S4096x1024.Idx → EReal)
      = Cert.ReferenceIdeal.Read.val_main_v7 (F := Ideal) W := rfl

/-- The same for the second weights. -/
theorem w2_eq (W : FVec Ideal Cert.KernelIdeal.S1024x4096 .f32) :
    (truncf .bf16 (Cert.KernelIdeal.Hand.quant2 (F := Ideal) W) Cert.KernelIdeal.Gen.bitsLt_bf16_f32 : Cert.KernelIdeal.S1024x4096.Idx → EReal)
      = Cert.ReferenceIdeal.Read.val_main_v15 (F := Ideal) W := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel program ends with its result at the perceptron of the batch
    (`KernelRun.lean`) and the reference with its result at the same function of the same arguments (`RefValue.lean`). -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2.1, (hagree c).2.2.2.2, ← w1_eq, ← w2_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
